-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S3072x1024 .f32) (main_arg3 : FVec F S3072 .f32) (main_arg4 : FVec F S1024x1024 .f32) (main_arg5 : FVec F S1024x1024 .f32) (main_arg6 : FVec F S1024x1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_v13 main_v16
-- ==== Kernel.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S_ : Shape := ⟨0, ![]⟩
abbrev S256x1024 : Shape := ⟨2, ![256, 1024]⟩
abbrev S256x3072 : Shape := ⟨2, ![256, 3072]⟩
abbrev S1x3072 : Shape := ⟨2, ![1, 3072]⟩

abbrev nBuf : Space → Nat
  | .hbm => 19
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S1024x3072, .bf16⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S1024, .f32⟩
  | .hbm, ⟨17, _⟩ => ⟨S3072, .f32⟩
  | .hbm, ⟨18, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S3072, .f32⟩
  | .local _ .vmem, ⟨6, _⟩ => ⟨S1024x3072, .bf16⟩
  | .local _ .vmem, ⟨7, _⟩ => ⟨S3072, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bcast_S_S1024 : S_.BroadcastsInDim S1024 (![] : Fin 0 → Fin S1024.rank)
  concatenates_S1024_S1024_S1024_S3072_d0 : Shape.Concatenates [S1024, S1024, S1024] S3072 0
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  shapeCasts_S3072_S3072 : S3072.ShapeCasts S3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072.size a ≤ S3072.size a
  hwx0_5 : ∀ i : grid0.Coords, EltTy.bits .f32 = 32 ∨ (Rect.block (s := S3072) S3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S8192x3072 : Shape := ⟨2, ![8192, 3072]⟩
abbrev S1x3072 : Shape := ⟨2, ![1, 3072]⟩
abbrev S1x1024 : Shape := ⟨2, ![1, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S8192x3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S1024x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x3072_S8192x3072_1_0_0_1_n_n_wf : DotDims.WF S8192x1024 S1024x3072 S8192x3072 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.CellFrameBits.lean ====
/-
  The frame of the GRU-cell program as printed, at any float family: @main is ten host operations (the transposes of
  the weight matrices, their narrowing to bf16, the two three-piece concatenates that lay the hidden weights side by
  side and pad the hidden bias with zeros) followed by ONE pipelined region over 32 batch tiles of 256 rows.

  What is proved here, in order: no host operation of the prefix writes an argument array, so the region finds the
  eight arguments as launched; each of the six input windows' staging buffers holds, at every grid point, the block of
  its array that the index map names (the four weight and bias windows are fetched once and never move); the body
  loads the six blocks whole, computes one tile of the new hidden state and stores it over the WHOLE output tile, so
  the output buffer afterwards is that tile whatever it held before (the body's earlier load of the output buffer reads
  a value nothing uses); hence the body obligation at every point, the run of the pipeline, and the frame: every weakly
  fair execution terminates without a fault and the eight argument arrays end as they began.
-/
import proofs.«127611_j62027917689184_1_alg».proof.Proof.Gen.Kernel.Launch
import proofs.«127611_j62027917689184_1_alg».proof.Proof.Gen.Kernel.Skeleton
import proofs.«127611_j62027917689184_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the ten host operations. -/
abbrev V (c : Dev nD) (b : Ref sig .tc) : Buf (Elt F) ((c : Thread nD τ).loc b) :=
  StableHlo.after hostOps0 (fun b => m (c, b)) b

/-- None of the ten host operations allocates a buffer. -/
theorem hostOps0_fresh : (hostOps0 : List (HloOp τ sig (Elt F))).Forall fun op => op.fresh = ∅ := by
  simp only [List.Forall]; repeat' constructor

/-- @main is the host prefix and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes exactly one buffer — a transpose, a narrowing, a constant, a broadcast or a
    concatenate writes its result — and none of those ten results is the reference at hand. -/
local macro "prefix_keeps" : tactic => `(tactic| (
  simp only [hostOps0, List.Forall, StableHlo.nullary_writes, StableHlo.unary_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
theorem V_main_arg5 (c : Dev nD) : V m c main_arg5 = m ((c : Thread nD τ).loc main_arg5) :=
  StableHlo.after_of_forall_not_mem (b := Proc.devRef .tc main_arg5) _ _ (List.forall_iff_forall_mem.mp (by prefix_keeps))
theorem V_main_arg6 (c : Dev nD) : V m c main_arg6 = m ((c : Thread nD τ).loc main_arg6) :=
  StableHlo.after_of_forall_not_mem (b := Proc.devRef .tc main_arg6) _ _ (List.forall_iff_forall_mem.mp (by prefix_keeps))
theorem V_main_arg7 (c : Dev nD) : V m c main_arg7 = m ((c : Thread nD τ).loc main_arg7) :=
  StableHlo.after_of_forall_not_mem (b := Proc.devRef .tc main_arg7) _ _ (List.forall_iff_forall_mem.mp (by prefix_keeps))

/-! ## The windows' blocks -/

/-- Window `w`'s block at grid point `t`: the rectangle of its array (as the region finds it) that the index map names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched the block index has not moved since the fetch. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's run to the frame -/

/-- In a final state of the pipeline's run the eight arguments are as launched: x, h and the input bias are arrays of input
    windows, which a pipeline leaves as it found them; the five other arguments are staged by no window, so the run leaves
    them at their region-entry contents; and the host prefix wrote none of the eight. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame from a run of the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m dats hA r h c) h

/-! ## The body's accesses -/

/-- The whole batch tile (x, h and the output), the whole weight matrix, the whole bias vector. -/
abbrev rTile : Rect S256x1024 := Rect.unit (s := S256x1024) ![0, 0] S256x1024.size inb_S256x1024_S256x1024_0_0
abbrev rWide : Rect S1024x3072 := Rect.unit (s := S1024x3072) ![0, 0] S1024x3072.size inb_S1024x3072_S1024x3072_0_0
abbrev rBias : Rect S3072 := Rect.unit (s := S3072) ![0] S3072.size inb_S3072_S3072_0

/-- The output tile after the body, as a function of the six input blocks: its one store, over the whole tile, of the
    new hidden state computed from the blocks as loaded. -/
def cellOut (x0 x1 : Vec F S256x1024 .f32) (x2 : Vec F S1024x3072 .bf16) (x3 : Vec F S3072 .f32) (x4 : Vec F S1024x3072 .bf16) (x5 : Vec F S3072 .f32) :
    Vec F S256x1024 .f32 :=
  View.canon [⟨rTile, k0_pay1 (View.ld x0 rTile) (View.ld x1 rTile) (View.ld x2 rWide) (View.ld x3 rBias) (View.ld x4 rWide) (View.ld x5 rBias)⟩]

/-- The one store covers the output tile. -/
theorem cellCover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging buffers — the six inputs at contents `x0 … x5`, the output at anything — runs to a state with
    the inputs unchanged and the output at `cellOut` of them. -/
theorem sound_kernel (c : Dev nD) (E : Set ℕ) (i : grid0.Coords)
    (a0 : Memref sig .tc .vmem S256x1024 .f32) (h0 : a0.IsWhole) (a1 : Memref sig .tc .vmem S256x1024 .f32) (h1 : a1.IsWhole)
    (a2 : Memref sig .tc .vmem S1024x3072 .bf16) (h2 : a2.IsWhole) (a3 : Memref sig .tc .vmem S3072 .f32) (h3 : a3.IsWhole)
    (a4 : Memref sig .tc .vmem S1024x3072 .bf16) (h4 : a4.IsWhole) (a5 : Memref sig .tc .vmem S3072 .f32) (h5 : a5.IsWhole)
    (a6 : Memref sig .tc .vmem S256x1024 .f32) (h6 : a6.IsWhole)
    (x0 x1 : Vec F S256x1024 .f32) (x2 : Vec F S1024x3072 .bf16) (x3 : Vec F S3072 .f32) (x4 : Vec F S1024x3072 .bf16) (x5 : Vec F S3072 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (cellOut x0 x1 x2 x3 x4 x5)) -∗ K ⟨⟩))
      ⊢ wp frame (wpE (defs₀ (F := F)) Variants.none c none) E (cc0__gru_kernel i a0 h0 a1 h1 a2 h2 a3 h3 a4 h4 a5 h5 a6 h6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cellCover _)

/-! ## The pipeline's proof data -/

/-- On core `c`: the arrays as the region finds them; after the body at point `t` each input buffer still at its block and
    the output buffer at `cellOut` of the six blocks; nothing of the kernel's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- What the body leaves in the output tile at point `t`. -/
theorem after6 (c : Dev nD) (t : Fin cfg0.N) : (dats m 0 c).after 6 t
    = cellOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each window's array ending at what
    the write-backs of the proof data make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Cell

end
-- ==== Proof.CellFrameIdeal.lean ====
/-
  The frame of the idealized GRU-cell program, at any float family: @main is ten host operations (the transposes of
  the weight matrices, their narrowing to bf16, the two three-piece concatenates that lay the hidden weights side by
  side and pad the hidden bias with zeros) followed by ONE pipelined region over 32 batch tiles of 256 rows.

  What is proved here, in order: no host operation of the prefix writes an argument array, so the region finds the
  eight arguments as launched; each of the six input windows' staging buffers holds, at every grid point, the block of
  its array that the index map names (the four weight and bias windows are fetched once and never move); the body
  loads the six blocks whole, computes one tile of the new hidden state and stores it over the WHOLE output tile, so
  the output buffer afterwards is that tile whatever it held before (the body's earlier load of the output buffer reads
  a value nothing uses); hence the body obligation at every point, the run of the pipeline, and the frame: every weakly
  fair execution terminates without a fault and the eight argument arrays end as they began.
-/
import proofs.«127611_j62027917689184_1_alg».proof.Proof.Gen.KernelIdeal.Launch
import proofs.«127611_j62027917689184_1_alg».proof.Proof.Gen.KernelIdeal.Skeleton
import proofs.«127611_j62027917689184_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the ten host operations. -/
abbrev V (c : Dev nD) (b : Ref sig .tc) : Buf (Elt F) ((c : Thread nD τ).loc b) :=
  StableHlo.after hostOps0 (fun b => m (c, b)) b

/-- None of the ten host operations allocates a buffer. -/
theorem hostOps0_fresh : (hostOps0 : List (HloOp τ sig (Elt F))).Forall fun op => op.fresh = ∅ := by
  simp only [List.Forall]; repeat' constructor

/-- @main is the host prefix and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each host operation writes exactly one buffer — a transpose, a narrowing, a constant, a broadcast or a
    concatenate writes its result — and none of those ten results is the reference at hand. -/
local macro "prefix_keeps" : tactic => `(tactic| (
  simp only [hostOps0, List.Forall, StableHlo.nullary_writes, StableHlo.unary_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))
theorem V_main_arg5 (c : Dev nD) : V m c main_arg5 = m ((c : Thread nD τ).loc main_arg5) :=
  StableHlo.after_of_forall_not_mem (b := Proc.devRef .tc main_arg5) _ _ (List.forall_iff_forall_mem.mp (by prefix_keeps))
theorem V_main_arg6 (c : Dev nD) : V m c main_arg6 = m ((c : Thread nD τ).loc main_arg6) :=
  StableHlo.after_of_forall_not_mem (b := Proc.devRef .tc main_arg6) _ _ (List.forall_iff_forall_mem.mp (by prefix_keeps))
theorem V_main_arg7 (c : Dev nD) : V m c main_arg7 = m ((c : Thread nD τ).loc main_arg7) :=
  StableHlo.after_of_forall_not_mem (b := Proc.devRef .tc main_arg7) _ _ (List.forall_iff_forall_mem.mp (by prefix_keeps))

/-! ## The windows' blocks -/

/-- Window `w`'s block at grid point `t`: the rectangle of its array (as the region finds it) that the index map names. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched the block index has not moved since the fetch. One lemma per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's run to the frame -/

/-- In a final state of the pipeline's run the eight arguments are as launched: x, h and the input bias are arrays of input
    windows, which a pipeline leaves as it found them; the five other arguments are staged by no window, so the run leaves
    them at their region-entry contents; and the host prefix wrote none of the eight. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩

/-- The frame from a run of the pipeline. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m dats hA r h c) h

/-! ## The body's accesses -/

/-- The whole batch tile (x, h and the output), the whole weight matrix, the whole bias vector. -/
abbrev rTile : Rect S256x1024 := Rect.unit (s := S256x1024) ![0, 0] S256x1024.size inb_S256x1024_S256x1024_0_0
abbrev rWide : Rect S1024x3072 := Rect.unit (s := S1024x3072) ![0, 0] S1024x3072.size inb_S1024x3072_S1024x3072_0_0
abbrev rBias : Rect S3072 := Rect.unit (s := S3072) ![0] S3072.size inb_S3072_S3072_0

/-- The output tile after the body, as a function of the six input blocks: its one store, over the whole tile, of the
    new hidden state computed from the blocks as loaded. -/
def cellOut (x0 x1 : Vec F S256x1024 .f32) (x2 : Vec F S1024x3072 .bf16) (x3 : Vec F S3072 .f32) (x4 : Vec F S1024x3072 .bf16) (x5 : Vec F S3072 .f32) :
    Vec F S256x1024 .f32 :=
  View.canon [⟨rTile, k0_pay1 (View.ld x0 rTile) (View.ld x1 rTile) (View.ld x2 rWide) (View.ld x3 rBias) (View.ld x4 rWide) (View.ld x5 rBias)⟩]

/-- The one store covers the output tile. -/
theorem cellCover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole staging buffers — the six inputs at contents `x0 … x5`, the output at anything — runs to a state with
    the inputs unchanged and the output at `cellOut` of them. -/
theorem sound_kernel (c : Dev nD) (E : Set ℕ) (i : grid0.Coords)
    (a0 : Memref sig .tc .vmem S256x1024 .f32) (h0 : a0.IsWhole) (a1 : Memref sig .tc .vmem S256x1024 .f32) (h1 : a1.IsWhole)
    (a2 : Memref sig .tc .vmem S1024x3072 .bf16) (h2 : a2.IsWhole) (a3 : Memref sig .tc .vmem S3072 .f32) (h3 : a3.IsWhole)
    (a4 : Memref sig .tc .vmem S1024x3072 .bf16) (h4 : a4.IsWhole) (a5 : Memref sig .tc .vmem S3072 .f32) (h5 : a5.IsWhole)
    (a6 : Memref sig .tc .vmem S256x1024 .f32) (h6 : a6.IsWhole)
    (x0 x1 : Vec F S256x1024 .f32) (x2 : Vec F S1024x3072 .bf16) (x3 : Vec F S3072 .f32) (x4 : Vec F S1024x3072 .bf16) (x5 : Vec F S3072 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (cellOut x0 x1 x2 x3 x4 x5)) -∗ K ⟨⟩))
      ⊢ wp frame (wpE (defs₀ (F := F)) Variants.none c none) E (cc0__gru_kernel i a0 h0 a1 h1 a2 h2 a3 h3 a4 h4 a5 h5 a6 h6) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cellCover _)

/-! ## The pipeline's proof data -/

/-- On core `c`: the arrays as the region finds them; after the body at point `t` each input buffer still at its block and
    the output buffer at `cellOut` of the six blocks; nothing of the kernel's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
/-- What the body leaves in the output tile at point `t`. -/
theorem after6 (c : Dev nD) (t : Fin cfg0.N) : (dats m 0 c).after 6 t
    = cellOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each window's array ending at what
    the write-backs of the proof data make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Cell

end
-- ==== Proof.CellSpec.lean ====
/-
  The GRU cell as ONE function of the eight argument arrays, entry by entry, on the extended reals.

  For batch row b and hidden unit q, with the input projection
      inGate b j  = (sum over k of x[b,k] * W[j,k]) + bias[j]            (j ranges over the 3 * 1024 gate columns)
  and the hidden projections
      hidGate U b q = sum over k of h[b,k] * U[q,k]                       (U one of the three hidden weight matrices)
  the gates are
      r = sigm (inGate b q          + hidGate U_r b q)
      z = sigm (inGate b (1024 + q) + hidGate U_z b q)
      n = tanh (inGate b (2048 + q) + r * (hidGate U_n b q + b_n[q]))
  and the new hidden state is (1 - z) * n + z * h[b,q], where sigm a = 1 / (1 + exp (-a)) and the float word of 1.0 denotes
  the real number one. The logistic function of the vector unit is this same sigm on every extended real.
-/
import Idealize.ShloMosaic.PureOps.Ideal
import Idealize.ShloMosaic.PureOps.Ideal.Laws
import Idealize.ShloMosaic.Lib.ValueIdx

noncomputable section

open scoped BigOperators

namespace Cert.Cell

open Idealize.ShloMosaic Idealize.ShloMosaic.ValueIdx

/-- The float word of 1.0, which both programs write where the formula says one. -/
abbrev one : EReal := Ideal.ofBits .f32 0x3F800000#32

/-- It denotes the real number one. -/
theorem one_eq : one = 1 := by simp [one, Ideal.ofBits, Ideal.ieee, -EReal.coe_mul]; norm_num

/-- The sigmoid as the reference spells it: one over one plus the exponential of the negation. -/
def sigm (a : EReal) : EReal := Ideal.div one (one + Ideal.exp (-a))

/-- The vector unit's logistic function is that sigmoid, on every extended real. -/
theorem logistic_eq_sigm (a : EReal) : Ideal.logistic a = sigm a := by
  unfold sigm Ideal.logistic; rw [one_eq]

variable (x h : (⟨2, ![8192, 1024]⟩ : Shape).Idx → EReal) (W : (⟨2, ![3072, 1024]⟩ : Shape).Idx → EReal)
  (bias : (⟨1, ![3072]⟩ : Shape).Idx → EReal) (Ur Uz Un : (⟨2, ![1024, 1024]⟩ : Shape).Idx → EReal)
  (bn : (⟨1, ![1024]⟩ : Shape).Idx → EReal)

/-- The input projection at batch row `b` and gate column `j`. -/
def inGate (b : Fin 8192) (j : Fin 3072) : EReal := (∑ k : Fin 1024, x (ix2 b k) * W (ix2 j k)) + bias (ix1 j)

/-- A hidden projection at batch row `b` and hidden unit `q`. -/
def hidGate (U : (⟨2, ![1024, 1024]⟩ : Shape).Idx → EReal) (b : Fin 8192) (q : Fin 1024) : EReal :=
  ∑ k : Fin 1024, h (ix2 b k) * U (ix2 q k)

/-- Gate column `off + q` of the three-gate axis. -/
abbrev col (off : Nat) (hoff : off + 1024 ≤ 3072) (q : Fin 1024) : Fin 3072 := ⟨off + q.val, by have := q.isLt; omega⟩

/-- The reset gate, the update gate and the candidate state. -/
def rGate (b : Fin 8192) (q : Fin 1024) : EReal := sigm (inGate x W bias b (col 0 (by omega) q) + hidGate h Ur b q)
def zGate (b : Fin 8192) (q : Fin 1024) : EReal := sigm (inGate x W bias b (col 1024 (by omega) q) + hidGate h Uz b q)
def nGate (b : Fin 8192) (q : Fin 1024) : EReal :=
  Ideal.tanh (inGate x W bias b (col 2048 (by omega) q) + rGate x h W bias Ur b q * (hidGate h Un b q + bn (ix1 q)))

/-- The new hidden state at batch row `b` and hidden unit `q`. -/
def gruAt (b : Fin 8192) (q : Fin 1024) : EReal :=
  (one - zGate x h W bias Uz b q) * nGate x h W bias Ur Un bn b q + zGate x h W bias Uz b q * h (ix2 b q)

/-- The whole result array. -/
def gru : (⟨2, ![8192, 1024]⟩ : Shape).Idx → EReal := fun i => gruAt x h W bias Ur Uz Un bn (i 0) (i 1)

theorem gru_apply (b : Fin 8192) (q : Fin 1024) : gru x h W bias Ur Uz Un bn (ix2 b q) = gruAt x h W bias Ur Uz Un bn b q := rfl

end Cert.Cell

end
-- ==== Proof.CellPayload.lean ====
/-
  One entry of the tile the body stores, as plain arithmetic on the six blocks it loads.

  The body multiplies the 256 x 1024 tile of x (and of h) into a 1024 x 3072 weight block, adds a length-3072 bias row
  broadcast over the 256 rows, and cuts the 3072 columns into the three gates. So at tile row p and gate column j each
  projection is
      proj l r v p j = (sum over k of l[p,k] * r[k,j]) + v[j],
  the matrix product into a zero accumulator being just that sum, the narrowing to bf16 the identity on extended reals, and
  the three slices reading columns q, 1024 + q and 2048 + q. The gates then combine the two projections A (of x) and B (of h):
      (1 - sigm (A₁ + B₁)) * tanh (A₂ + sigm (A₀ + B₀) * B₂) + sigm (A₁ + B₁) * h[p,q].
-/
import proofs.«127611_j62027917689184_1_alg».proof.Proof.Gen.KernelIdeal.Skeleton
import proofs.«127611_j62027917689184_1_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.CellPayload

open Cert.KernelIdeal Cert.KernelIdeal.Gen Idealize.ShloMosaic Idealize.ShloMosaic.ValueIdx Cert.Cell

/-! ## The matrix product at an entry -/

/-- Where the product's operands are read: the left operand at the result's row and the contracted coordinate, the right at
    the contracted coordinate and the result's column. -/
theorem lhs_row (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_contr (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_contr (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_col (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The matrix product into a zero accumulator, at row `p` and column `j`: the sum over the 1024 contracted coordinates. -/
theorem mm_at (l : FVec Ideal S256x1024 .bf16) (r : FVec Ideal S1024x3072 .bf16) (p : Fin 256) (j : Fin 3072) :
    matmul dot_S256x1024_S1024x3072_S256x3072_1_0_0_1_n_n none l r (constant (F := Ideal) S256x3072 .f32 0x00000000#32) (ix2 p j)
      = ∑ k : Fin 1024, l (ix2 p k) * r (ix2 k j) := by
  refine (Ideal.matmul_constant_zero_apply dot_S256x1024_S1024x3072_S256x3072_1_0_0_1_n_n none l r (ix2 p j)).trans ?_
  rw [← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p j) ((ValueIdx.contrEquiv1 dot_S256x1024_S1024x3072_S256x3072_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x3072_S256x3072_1_0_0_1_n_n.rhsIdx (ix2 p j) ((ValueIdx.contrEquiv1 dot_S256x1024_S1024x3072_S256x3072_1_0_0_1_n_n 1024 rfl rfl).symm k) = ix2 k j := funext fun a => Fin.ext (by
    match a with
    | ⟨0, _⟩ => exact (rhs_contr _ _).trans hk
    | ⟨1, _⟩ => exact rhs_col _ _)
  rw [el, er]

/-! ## The bias row and the projections -/

/-- A length-3072 vector laid out as one row and repeated over 256 rows reads, at `(p, j)`, the vector at `j`. -/
theorem row_at (v : FVec Ideal S3072 .f32) (h1 : S3072.ShapeCasts S1x3072) (h2 : S1x3072.Broadcasts S256x3072) (p : Fin 256) (j : Fin 3072) :
    broadcastTo S256x3072 (shapeCast S1x3072 v h1) h2 (ix2 p j) = v (ix1 j) :=
  (broadcastTo_1b_ab_apply (shapeCast S1x3072 v h1) h2 p j).trans (shapeCast_a_1a_apply v h1 0 j)

/-- A projection at tile row `p` and gate column `j`. -/
def projAt (l : FVec Ideal S256x1024 .bf16) (r : FVec Ideal S1024x3072 .bf16) (v : FVec Ideal S3072 .f32) (p : Fin 256) (j : Fin 3072) : EReal :=
  (∑ k : Fin 1024, l (ix2 p k) * r (ix2 k j)) + v (ix1 j)

/-- The product plus the bias row, at `(p, j)`. -/
theorem proj_at (l : FVec Ideal S256x1024 .bf16) (r : FVec Ideal S1024x3072 .bf16) (v : FVec Ideal S3072 .f32)
    (h1 : S3072.ShapeCasts S1x3072) (h2 : S1x3072.Broadcasts S256x3072) (p : Fin 256) (j : Fin 3072) :
    addf (matmul dot_S256x1024_S1024x3072_S256x3072_1_0_0_1_n_n none l r (constant (F := Ideal) S256x3072 .f32 0x00000000#32)) (broadcastTo S256x3072 (shapeCast S1x3072 v h1) h2) (ix2 p j)
      = projAt l r v p j := by
  show matmul dot_S256x1024_S1024x3072_S256x3072_1_0_0_1_n_n none l r (constant (F := Ideal) S256x3072 .f32 0x00000000#32) (ix2 p j)
      + broadcastTo S256x3072 (shapeCast S1x3072 v h1) h2 (ix2 p j) = _
  rw [mm_at, row_at]
  rfl

/-- The three gates' slices of a projection read its columns `q`, `1024 + q` and `2048 + q`. -/
theorem gate0_at (l : FVec Ideal S256x1024 .bf16) (r : FVec Ideal S1024x3072 .bf16) (v : FVec Ideal S3072 .f32)
    (h1 : S3072.ShapeCasts S1x3072) (h2 : S1x3072.Broadcasts S256x3072) (hs : S256x3072.Slices ![0, 0] S256x1024) (p : Fin 256) (q : Fin 1024) :
    extractStridedSlice S256x1024 ![0, 0] (addf (matmul dot_S256x1024_S1024x3072_S256x3072_1_0_0_1_n_n none l r (constant (F := Ideal) S256x3072 .f32 0x00000000#32)) (broadcastTo S256x3072 (shapeCast S1x3072 v h1) h2)) hs (ix2 p q)
      = projAt l r v p (col 0 (by omega) q) :=
  (slice2_axis1_apply 0 _ hs p q (col 0 (by omega) q) rfl).trans (proj_at l r v h1 h2 p _)
theorem gate1_at (l : FVec Ideal S256x1024 .bf16) (r : FVec Ideal S1024x3072 .bf16) (v : FVec Ideal S3072 .f32)
    (h1 : S3072.ShapeCasts S1x3072) (h2 : S1x3072.Broadcasts S256x3072) (hs : S256x3072.Slices ![0, 1024] S256x1024) (p : Fin 256) (q : Fin 1024) :
    extractStridedSlice S256x1024 ![0, 1024] (addf (matmul dot_S256x1024_S1024x3072_S256x3072_1_0_0_1_n_n none l r (constant (F := Ideal) S256x3072 .f32 0x00000000#32)) (broadcastTo S256x3072 (shapeCast S1x3072 v h1) h2)) hs (ix2 p q)
      = projAt l r v p (col 1024 (by omega) q) :=
  (slice2_axis1_apply 1024 _ hs p q (col 1024 (by omega) q) rfl).trans (proj_at l r v h1 h2 p _)
theorem gate2_at (l : FVec Ideal S256x1024 .bf16) (r : FVec Ideal S1024x3072 .bf16) (v : FVec Ideal S3072 .f32)
    (h1 : S3072.ShapeCasts S1x3072) (h2 : S1x3072.Broadcasts S256x3072) (hs : S256x3072.Slices ![0, 2048] S256x1024) (p : Fin 256) (q : Fin 1024) :
    extractStridedSlice S256x1024 ![0, 2048] (addf (matmul dot_S256x1024_S1024x3072_S256x3072_1_0_0_1_n_n none l r (constant (F := Ideal) S256x3072 .f32 0x00000000#32)) (broadcastTo S256x3072 (shapeCast S1x3072 v h1) h2)) hs (ix2 p q)
      = projAt l r v p (col 2048 (by omega) q) :=
  (slice2_axis1_apply 2048 _ hs p q (col 2048 (by omega) q) rfl).trans (proj_at l r v h1 h2 p _)

/-! ## The gates -/

/-- The vector unit's logistic and tanh, read at an entry. -/
theorem logistic_at {s : Shape} {φ : FTy} (x : FVec Ideal s φ) (i : s.Idx) : logistic x i = sigm (x i) := logistic_eq_sigm _
theorem tanh_at {s : Shape} {φ : FTy} (x : FVec Ideal s φ) (i : s.Idx) : tanh x i = Ideal.tanh (x i) := rfl

/-- The gate arithmetic on two projections `A` (of x) and `B` (of h), as functions of the gate column, and the old hidden entry. -/
def combine (A B : Fin 3072 → EReal) (hq : EReal) (q : Fin 1024) : EReal :=
  (one - sigm (A (col 1024 (by omega) q) + B (col 1024 (by omega) q)))
      * Ideal.tanh (A (col 2048 (by omega) q) + sigm (A (col 0 (by omega) q) + B (col 0 (by omega) q)) * B (col 2048 (by omega) q))
    + sigm (A (col 1024 (by omega) q) + B (col 1024 (by omega) q)) * hq

/-- The stored tile at `(p, q)`: the gate arithmetic on the projection of the x tile through the input weights and bias and
    the projection of the h tile through the hidden weights and bias. -/
theorem pay_at (x0 x1 : FVec Ideal S256x1024 .f32) (x2 : FVec Ideal S1024x3072 .bf16) (x3 : FVec Ideal S3072 .f32)
    (x4 : FVec Ideal S1024x3072 .bf16) (x5 : FVec Ideal S3072 .f32) (p : Fin 256) (q : Fin 1024) :
    k0_pay1 (F := Ideal) x0 x1 x2 x3 x4 x5 (ix2 p q)
      = combine (projAt (truncf .bf16 x0 bitsLt_bf16_f32) x2 x3 p) (projAt (truncf .bf16 x1 bitsLt_bf16_f32) x4 x5 p) (x1 (ix2 p q)) q := by
  unfold k0_pay1
  simp only [shapeCast_self, addf_apply, mulf_apply, subf_apply, broadcast_apply, logistic_at, tanh_at, gate0_at, gate1_at, gate2_at]
  rfl

end Cert.KernelIdeal.CellPayload

end
-- ==== Proof.LibCat3.lean ====
/-
  General lemmas for a host concatenate of THREE operands (nothing here mentions a particular program).

  * `nary3_result`: a host operation over a literal family of three references leaves, in its result buffer, its function
    of the three operands' contents, each read AT ITS OWN REFERENCE — so that a run of host operations can go on being read
    operand by operand (the library states this for four references; for any other count it reads the operands under a
    binder, where no further step applies).
  * `cat3_axis1_fst / _snd / _trd`: three `[n, w]` matrices laid side by side into an `[n, t]` matrix read, at row `r` and a
    column inside the first, second or third band, the first, second or third matrix at `(r, c)`, `c` the column's offset
    in its band.
  * `cat3_axis0_fst / _snd / _trd`: the same for three length-`w` vectors laid end to end.
-/
import Idealize.ShloMosaic.Lib.StableHlo.Run
import Idealize.ShloMosaic.Lib.Pipeline.Value
import Idealize.ShloMosaic.Lib.ValueIdx

noncomputable section

namespace Cert.LibCat3

open Idealize.ShloMosaic Idealize.ShloMosaic.StableHlo Idealize.ShloMosaic.ValueIdx Idealize.SL.Sem

section Result

variable {nD : Nat} {τ : Topo} {sig : RefSig} {Val : EltTy → Type} {x a b y : Ref sig .tc}

/-- A host operation over the literal family `![x, a, b]`: its result buffer holds the operation's function of the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Result

section Read

variable {α : Type}

/-- Three matrices side by side, read in the first band. -/
theorem cat3_axis1_fst {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = c.val) :
    concatenate ⟨2, ![n, t]⟩ 1 [⟨⟨2, ![n, w]⟩, X0⟩, ⟨⟨2, ![n, w]⟩, X1⟩, ⟨⟨2, ![n, w]⟩, X2⟩] h (ix2 r j) = X0 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 0 (by show (0 : ℕ) < 3; omega) ⟨2, ![n, w]⟩ X0 rfl rfl 0 rfl (ix2 r c)
    (fun b hb => by match b with | ⟨0, _⟩ => rfl | ⟨1, _⟩ => exact absurd rfl hb) (by show 0 + c.val = j.val; omega)

/-- Three matrices side by side, read in the second band. -/
theorem cat3_axis1_snd {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = w + c.val) :
    concatenate ⟨2, ![n, t]⟩ 1 [⟨⟨2, ![n, w]⟩, X0⟩, ⟨⟨2, ![n, w]⟩, X1⟩, ⟨⟨2, ![n, w]⟩, X2⟩] h (ix2 r j) = X1 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 1 (by show (1 : ℕ) < 3; omega) ⟨2, ![n, w]⟩ X1 rfl rfl w rfl (ix2 r c)
    (fun b hb => by match b with | ⟨0, _⟩ => rfl | ⟨1, _⟩ => exact absurd rfl hb) (by show w + c.val = j.val; omega)

/-- Three matrices side by side, read in the third band. -/
theorem cat3_axis1_trd {n w t : Nat} (X0 X1 X2 : (⟨2, ![n, w]⟩ : Shape).Idx → α)
    (h : Shape.Concatenates [(⟨2, ![n, w]⟩ : Shape), ⟨2, ![n, w]⟩, ⟨2, ![n, w]⟩] ⟨2, ![n, t]⟩ 1)
    (r : Fin n) (c : Fin w) (j : Fin t) (hj : j.val = w + w + c.val) :
    concatenate ⟨2, ![n, t]⟩ 1 [⟨⟨2, ![n, w]⟩, X0⟩, ⟨⟨2, ![n, w]⟩, X1⟩, ⟨⟨2, ![n, w]⟩, X2⟩] h (ix2 r j) = X2 (ix2 r c) :=
  concatenate_apply_piece (t := (⟨2, ![n, t]⟩ : Shape)) (1 : Fin 2) ([⟨⟨2, ![n, w]⟩, X0⟩, ⟨⟨2, ![n, w]⟩, X1⟩, ⟨⟨2, ![n, w]⟩, X2⟩] : List ((s : Shape) × (s.Idx → α))) h (ix2 r j) 2 (by show (2 : ℕ) < 3; omega) ⟨2, ![n, w]⟩ X2 rfl rfl (w + w) rfl (ix2 r c)
    (fun b hb => by match b with | ⟨0, _⟩ => rfl | ⟨1, _⟩ => exact absurd rfl hb) (by show w + w + c.val = j.val; omega)

/-- Three vectors end to end, read in the first stretch. -/
theorem cat3_axis0_fst {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = c.val) :
    concatenate ⟨1, ![t]⟩ 0 [⟨⟨1, ![w]⟩, X0⟩, ⟨⟨1, ![w]⟩, X1⟩, ⟨⟨1, ![w]⟩, X2⟩] h (ix1 j) = X0 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 0 (by show (0 : ℕ) < 3; omega) ⟨1, ![w]⟩ X0 rfl rfl 0 rfl (ix1 c)
    (fun b hb => by match b with | ⟨0, _⟩ => exact absurd rfl hb) (by show 0 + c.val = j.val; omega)

/-- Three vectors end to end, read in the second stretch. -/
theorem cat3_axis0_snd {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = w + c.val) :
    concatenate ⟨1, ![t]⟩ 0 [⟨⟨1, ![w]⟩, X0⟩, ⟨⟨1, ![w]⟩, X1⟩, ⟨⟨1, ![w]⟩, X2⟩] h (ix1 j) = X1 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 1 (by show (1 : ℕ) < 3; omega) ⟨1, ![w]⟩ X1 rfl rfl w rfl (ix1 c)
    (fun b hb => by match b with | ⟨0, _⟩ => exact absurd rfl hb) (by show w + c.val = j.val; omega)

/-- Three vectors end to end, read in the third stretch. -/
theorem cat3_axis0_trd {w t : Nat} (X0 X1 X2 : (⟨1, ![w]⟩ : Shape).Idx → α)
    (h : Shape.Concatenates [(⟨1, ![w]⟩ : Shape), ⟨1, ![w]⟩, ⟨1, ![w]⟩] ⟨1, ![t]⟩ 0) (c : Fin w) (j : Fin t) (hj : j.val = w + w + c.val) :
    concatenate ⟨1, ![t]⟩ 0 [⟨⟨1, ![w]⟩, X0⟩, ⟨⟨1, ![w]⟩, X1⟩, ⟨⟨1, ![w]⟩, X2⟩] h (ix1 j) = X2 (ix1 c) :=
  concatenate_apply_piece (t := (⟨1, ![t]⟩ : Shape)) (0 : Fin 1) ([⟨⟨1, ![w]⟩, X0⟩, ⟨⟨1, ![w]⟩, X1⟩, ⟨⟨1, ![w]⟩, X2⟩] : List ((s : Shape) × (s.Idx → α))) h (ix1 j) 2 (by show (2 : ℕ) < 3; omega) ⟨1, ![w]⟩ X2 rfl rfl (w + w) rfl (ix1 c)
    (fun b hb => by match b with | ⟨0, _⟩ => exact absurd rfl hb) (by show w + w + c.val = j.val; omega)

end Read

end Cert.LibCat3

end
-- ==== Proof.CellValue.lean ====
/-
  What the idealized program's result array holds after the run: the GRU cell of the specification.

  The region's three host-built operands, read at an index: the transposed input weights at (k, j) are W[j, k]; the three
  transposed hidden weight matrices laid side by side read, in band g at (k, q), the g-th matrix at [q, k]; the padded
  hidden bias is zero on the first two bands and the candidate's bias on the third. The batch windows' blocks at grid point
  t are rows 256 t … 256 t + 255 of x, of h and of the result; the weight and bias windows' blocks are their whole arrays.
  So the tile the body stores at point t is, at (p, q), the specification's entry at batch row 256 t + p — the two zero bands
  of the padded bias vanishing by a + 0 = a, which holds on every extended real —, what point t writes back is block t of
  the specification's array, the 32 blocks cover the result array, and the array ends equal to it.
-/
import proofs.«127611_j62027917689184_1_alg».proof.Proof.CellFrameIdeal
import proofs.«127611_j62027917689184_1_alg».proof.Proof.CellPayload
import proofs.«127611_j62027917689184_1_alg».proof.Proof.LibCat3
import Idealize.ShloMosaic.Lib.StableHlo.Run

set_option maxRecDepth 16384

noncomputable section

open scoped BigOperators

namespace Cert.KernelIdeal.CellValue

open Cert.KernelIdeal Cert.KernelIdeal.Gen Cert.KernelIdeal.Cell Cert.KernelIdeal.CellPayload Cert.Cell Cert.LibCat3
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-! ## The eight arguments as launched, and the specification's array of them -/

abbrev aX (c : Dev nD) : (⟨2, ![8192, 1024]⟩ : Shape).Idx → EReal := m ((c : Thread nD τ).loc main_arg0)
abbrev aH (c : Dev nD) : (⟨2, ![8192, 1024]⟩ : Shape).Idx → EReal := m ((c : Thread nD τ).loc main_arg1)
abbrev aW (c : Dev nD) : (⟨2, ![3072, 1024]⟩ : Shape).Idx → EReal := m ((c : Thread nD τ).loc main_arg2)
abbrev aB (c : Dev nD) : (⟨1, ![3072]⟩ : Shape).Idx → EReal := m ((c : Thread nD τ).loc main_arg3)
abbrev aUr (c : Dev nD) : (⟨2, ![1024, 1024]⟩ : Shape).Idx → EReal := m ((c : Thread nD τ).loc main_arg4)
abbrev aUz (c : Dev nD) : (⟨2, ![1024, 1024]⟩ : Shape).Idx → EReal := m ((c : Thread nD τ).loc main_arg5)
abbrev aUn (c : Dev nD) : (⟨2, ![1024, 1024]⟩ : Shape).Idx → EReal := m ((c : Thread nD τ).loc main_arg6)
abbrev aBn (c : Dev nD) : (⟨1, ![1024]⟩ : Shape).Idx → EReal := m ((c : Thread nD τ).loc main_arg7)

/-- The GRU cell of the launch contents. -/
def G (c : Dev nD) : (⟨2, ![8192, 1024]⟩ : Shape).Idx → EReal := gru (aX m c) (aH m c) (aW m c) (aB m c) (aUr m c) (aUz m c) (aUn m c) (aBn m c)

/-- The three host-built operands as the region finds them, and the six blocks at a grid point, each at its literal type. -/
abbrev vW (c : Dev nD) : FVec Ideal S1024x3072 .bf16 := V m c main_v1
abbrev vU (c : Dev nD) : FVec Ideal S1024x3072 .bf16 := V m c main_v6
abbrev vUb (c : Dev nD) : FVec Ideal S3072 .f32 := V m c main_v8
abbrev bX (c : Dev nD) (t : Fin cfg0.N) : FVec Ideal S256x1024 .f32 := iblk m c 0 t
abbrev bH (c : Dev nD) (t : Fin cfg0.N) : FVec Ideal S256x1024 .f32 := iblk m c 1 t
abbrev bW (c : Dev nD) (t : Fin cfg0.N) : FVec Ideal S1024x3072 .bf16 := iblk m c 2 t
abbrev bB (c : Dev nD) (t : Fin cfg0.N) : FVec Ideal S3072 .f32 := iblk m c 3 t
abbrev bU (c : Dev nD) (t : Fin cfg0.N) : FVec Ideal S1024x3072 .bf16 := iblk m c 4 t
abbrev bUb (c : Dev nD) (t : Fin cfg0.N) : FVec Ideal S3072 .f32 := iblk m c 5 t

/-! ## The host-built operands, read at an index -/

/-- Reads a buffer after the ten host operations, one operation at a time: a result buffer holds its operation's
    function of the operands, any other buffer what it held before. -/
local macro "host_results" : tactic => `(tactic| (
  simp only [after_cons, after_nil]
  repeat (first
    | rw [nullary_result] | rw [unary_result] | rw [nary3_result]
    | (rw [nullary_result_ne]; rotate_left; decide)
    | (rw [unary_result_ne]; rotate_left; decide)
    | (rw [nary_result_ne]; rotate_left; decide))))

/-- The input weights, transposed and narrowed. -/
theorem wih_eq (c : Dev nD) : vW m c
    = truncf (F := Ideal) .bf16 (transpose S1024x3072 [1, 0] (aW m c) transposes_S3072x1024_S1024x3072_1_0) bitsLt_bf16_f32 := by
  dsimp only [vW, V, hostOps0]; host_results

theorem wih_at (c : Dev nD) (k : Fin 1024) (j : Fin 3072) : vW m c (ix2 k j) = aW m c (ix2 j k) := by
  rw [wih_eq]
  exact transpose_ix2_apply (aW m c) transposes_S3072x1024_S1024x3072_1_0 k j

/-- The three hidden weight matrices, each transposed, side by side, narrowed. -/
theorem uT_eq (c : Dev nD) : vU m c
    = truncf (F := Ideal) .bf16 (concatenate S1024x3072 1
        [⟨S1024x1024, transpose S1024x1024 [1, 0] (aUr m c) transposes_S1024x1024_S1024x1024_1_0⟩,
         ⟨S1024x1024, transpose S1024x1024 [1, 0] (aUz m c) transposes_S1024x1024_S1024x1024_1_0⟩,
         ⟨S1024x1024, transpose S1024x1024 [1, 0] (aUn m c) transposes_S1024x1024_S1024x1024_1_0⟩]
        concatenates_S1024x1024_S1024x1024_S1024x1024_S1024x3072_d1) bitsLt_bf16_f32 := by
  dsimp only [vU, vUb, V, hostOps0]; host_results; rfl

theorem ur_at (c : Dev nD) (k q : Fin 1024) : vU m c (ix2 k (col 0 (by omega) q)) = aUr m c (ix2 q k) := by
  rw [uT_eq]
  exact (cat3_axis1_fst _ _ _ concatenates_S1024x1024_S1024x1024_S1024x1024_S1024x3072_d1 k q (col 0 (by omega) q) (by show 0 + q.val = q.val; omega)).trans
    (transpose_ix2_apply (aUr m c) transposes_S1024x1024_S1024x1024_1_0 k q)
theorem uz_at (c : Dev nD) (k q : Fin 1024) : vU m c (ix2 k (col 1024 (by omega) q)) = aUz m c (ix2 q k) := by
  rw [uT_eq]
  exact (cat3_axis1_snd _ _ _ concatenates_S1024x1024_S1024x1024_S1024x1024_S1024x3072_d1 k q (col 1024 (by omega) q) rfl).trans
    (transpose_ix2_apply (aUz m c) transposes_S1024x1024_S1024x1024_1_0 k q)
theorem un_at (c : Dev nD) (k q : Fin 1024) : vU m c (ix2 k (col 2048 (by omega) q)) = aUn m c (ix2 q k) := by
  rw [uT_eq]
  exact (cat3_axis1_trd _ _ _ concatenates_S1024x1024_S1024x1024_S1024x1024_S1024x3072_d1 k q (col 2048 (by omega) q) rfl).trans
    (transpose_ix2_apply (aUn m c) transposes_S1024x1024_S1024x1024_1_0 k q)

/-- The hidden bias padded with two bands of zeros. -/
theorem ub_eq (c : Dev nD) : vUb m c
    = concatenate S3072 0
        [⟨S1024, broadcastInDim S1024 ![] bcast_S_S1024 (constant (F := Ideal) S_ .f32 0x00000000#32)⟩,
         ⟨S1024, broadcastInDim S1024 ![] bcast_S_S1024 (constant (F := Ideal) S_ .f32 0x00000000#32)⟩,
         ⟨S1024, aBn m c⟩]
        concatenates_S1024_S1024_S1024_S3072_d0 := by
  dsimp only [vU, vUb, V, hostOps0]; host_results; rfl

/-- The zero word broadcast reads zero. -/
theorem zeros_at (q : Fin 1024) : broadcastInDim S1024 ![] bcast_S_S1024 (constant (F := Ideal) S_ .f32 0x00000000#32) (ix1 q) = (0 : EReal) :=
  (broadcastInDim_apply ![] bcast_S_S1024 (constant (F := Ideal) S_ .f32 0x00000000#32) (ix1 q) ix0 (fun a => a.elim0)).trans Ideal.ofBits_zero_f32

theorem ub_r_at (c : Dev nD) (q : Fin 1024) : vUb m c (ix1 (col 0 (by omega) q)) = (0 : EReal) := by
  rw [ub_eq]
  exact (cat3_axis0_fst _ _ _ concatenates_S1024_S1024_S1024_S3072_d0 q (col 0 (by omega) q) (by show 0 + q.val = q.val; omega)).trans (zeros_at q)
theorem ub_z_at (c : Dev nD) (q : Fin 1024) : vUb m c (ix1 (col 1024 (by omega) q)) = (0 : EReal) := by
  rw [ub_eq]
  exact (cat3_axis0_snd _ _ _ concatenates_S1024_S1024_S1024_S3072_d0 q (col 1024 (by omega) q) rfl).trans (zeros_at q)
theorem ub_n_at (c : Dev nD) (q : Fin 1024) : vUb m c (ix1 (col 2048 (by omega) q)) = aBn m c (ix1 q) := by
  rw [ub_eq]
  exact cat3_axis0_trd _ _ _ concatenates_S1024_S1024_S1024_S3072_d0 q (col 2048 (by omega) q) rfl

/-! ## The blocks, read at an index -/

/-- The index maps over the grid: the three batch windows sit at block row `t`, the four others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Batch row `256 t + p`: row `p` of tile `t`. -/
def row (t : Fin cfg0.N) (p : Fin 256) : Fin 8192 := ⟨256 * t.val + p.val, by
  have ht : t.val < 32 := lt_of_lt_of_eq t.isLt N_0
  have hp := p.isLt
  omega⟩

theorem x_blk (c : Dev nD) (t : Fin cfg0.N) (p : Fin 256) (k : Fin 1024) : bX m c t (ix2 p k) = aX m c (ix2 (row t p) k) := by
  obtain ⟨e0, e1, -⟩ := idx_facts t
  show V m c main_arg0 (((cfg0.win 0).blk t).view.emb (ix2 p k)) = _
  rw [V_main_arg0]
  refine congrArg (aX m c) (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem h_blk (c : Dev nD) (t : Fin cfg0.N) (p : Fin 256) (k : Fin 1024) : bH m c t (ix2 p k) = aH m c (ix2 (row t p) k) := by
  obtain ⟨-, -, e0, e1, -⟩ := idx_facts t
  show V m c main_arg1 (((cfg0.win 1).blk t).view.emb (ix2 p k)) = _
  rw [V_main_arg1]
  refine congrArg (aH m c) (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem w_blk (c : Dev nD) (t : Fin cfg0.N) (k : Fin 1024) (j : Fin 3072) : bW m c t (ix2 k j) = aW m c (ix2 j k) := by
  obtain ⟨-, -, -, -, e0, e1, -⟩ := idx_facts t
  refine Eq.trans ?_ (wih_at m c k j)
  show V m c main_v1 (((cfg0.win 2).blk t).view.emb (ix2 k j)) = V m c main_v1 (ix2 k j)
  refine congrArg (V m c main_v1) (funext fun a => Fin.ext ?_)
  match a with
  | ⟨0, _⟩ => show win0_2.index t (0 : Fin 2) * 1024 + 1 * k.val = k.val; omega
  | ⟨1, _⟩ => show win0_2.index t (1 : Fin 2) * 3072 + 1 * j.val = j.val; omega

theorem b_blk (c : Dev nD) (t : Fin cfg0.N) (j : Fin 3072) : bB m c t (ix1 j) = aB m c (ix1 j) := by
  obtain ⟨-, -, -, -, -, -, e0, -⟩ := idx_facts t
  show V m c main_arg3 (((cfg0.win 3).blk t).view.emb (ix1 j)) = _
  rw [V_main_arg3]
  refine congrArg (aB m c) (funext fun a => Fin.ext ?_)
  match a with
  | ⟨0, _⟩ => show win0_3.index t (0 : Fin 1) * 3072 + 1 * j.val = j.val; omega

/-- The hidden weights' block is the whole side-by-side array. -/
theorem u_blk (c : Dev nD) (t : Fin cfg0.N) (k : Fin 1024) (j : Fin 3072) :
    bU m c t (ix2 k j) = vU m c (ix2 k j) := by
  obtain ⟨-, -, -, -, -, -, -, e0, e1, -⟩ := idx_facts t
  show V m c main_v6 (((cfg0.win 4).blk t).view.emb (ix2 k j)) = V m c main_v6 (ix2 k j)
  refine congrArg (V m c main_v6) (funext fun a => Fin.ext ?_)
  match a with
  | ⟨0, _⟩ => show win0_4.index t (0 : Fin 2) * 1024 + 1 * k.val = k.val; omega
  | ⟨1, _⟩ => show win0_4.index t (1 : Fin 2) * 3072 + 1 * j.val = j.val; omega

/-- The padded hidden bias' block is the whole vector. -/
theorem ub_blk (c : Dev nD) (t : Fin cfg0.N) (j : Fin 3072) : bUb m c t (ix1 j) = vUb m c (ix1 j) := by
  obtain ⟨-, -, -, -, -, -, -, -, -, e0, -⟩ := idx_facts t
  show V m c main_v8 (((cfg0.win 5).blk t).view.emb (ix1 j)) = V m c main_v8 (ix1 j)
  refine congrArg (V m c main_v8) (funext fun a => Fin.ext ?_)
  match a with
  | ⟨0, _⟩ => show win0_5.index t (0 : Fin 1) * 3072 + 1 * j.val = j.val; omega

/-- Where the output window's block sits in the result array. -/
theorem out_emb (t : Fin cfg0.N) (p : Fin 256) (q : Fin 1024) : ((cfg0.win 6).blk t).view.emb (ix2 p q) = ix2 (row t p) q := by
  obtain ⟨-, -, -, -, -, -, -, -, -, -, e0, e1⟩ := idx_facts t
  refine funext fun a => Fin.ext ?_
  match a with
  | ⟨0, _⟩ => show win0_6.index t (0 : Fin 2) * 256 + 1 * p.val = 256 * t.val + p.val; omega
  | ⟨1, _⟩ => show win0_6.index t (1 : Fin 2) * 1024 + 1 * q.val = q.val; omega

/-! ## The stored tile is the specification's -/

/-- The projection of the x tile is the input projection at the tile's batch row. -/
theorem projX (c : Dev nD) (t : Fin cfg0.N) (p : Fin 256) (j : Fin 3072) :
    projAt (truncf .bf16 (bX m c t) bitsLt_bf16_f32) (bW m c t) (bB m c t) p j = inGate (aX m c) (aW m c) (aB m c) (row t p) j := by
  unfold projAt inGate
  show (∑ k : Fin 1024, bX m c t (ix2 p k) * bW m c t (ix2 k j)) + bB m c t (ix1 j) = _
  rw [b_blk]
  exact congrArg (· + aB m c (ix1 j)) (Finset.sum_congr rfl fun k _ => by rw [x_blk, w_blk])

/-- The projection of the h tile through the side-by-side hidden weights, band by band. -/
theorem projH (c : Dev nD) (t : Fin cfg0.N) (p : Fin 256) (j : Fin 3072) :
    projAt (truncf .bf16 (bH m c t) bitsLt_bf16_f32) (bU m c t) (bUb m c t) p j
      = (∑ k : Fin 1024, aH m c (ix2 (row t p) k) * vU m c (ix2 k j)) + vUb m c (ix1 j) := by
  unfold projAt
  show (∑ k : Fin 1024, bH m c t (ix2 p k) * bU m c t (ix2 k j)) + bUb m c t (ix1 j) = _
  rw [ub_blk]
  exact congrArg (· + vUb m c (ix1 j)) (Finset.sum_congr rfl fun k _ => by rw [h_blk, u_blk])

theorem projH_r (c : Dev nD) (t : Fin cfg0.N) (p : Fin 256) (q : Fin 1024) :
    projAt (truncf .bf16 (bH m c t) bitsLt_bf16_f32) (bU m c t) (bUb m c t) p (col 0 (by omega) q) = hidGate (aH m c) (aUr m c) (row t p) q := by
  rw [projH, ub_r_at, add_zero]
  exact Finset.sum_congr rfl fun k _ => by rw [ur_at]
theorem projH_z (c : Dev nD) (t : Fin cfg0.N) (p : Fin 256) (q : Fin 1024) :
    projAt (truncf .bf16 (bH m c t) bitsLt_bf16_f32) (bU m c t) (bUb m c t) p (col 1024 (by omega) q) = hidGate (aH m c) (aUz m c) (row t p) q := by
  rw [projH, ub_z_at, add_zero]
  exact Finset.sum_congr rfl fun k _ => by rw [uz_at]
theorem projH_n (c : Dev nD) (t : Fin cfg0.N) (p : Fin 256) (q : Fin 1024) :
    projAt (truncf .bf16 (bH m c t) bitsLt_bf16_f32) (bU m c t) (bUb m c t) p (col 2048 (by omega) q)
      = hidGate (aH m c) (aUn m c) (row t p) q + aBn m c (ix1 q) := by
  rw [projH, ub_n_at]
  exact congrArg (· + aBn m c (ix1 q)) (Finset.sum_congr rfl fun k _ => by rw [un_at])

/-- The tile the body stores at point `t`, at `(p, q)`: the specification's entry at batch row `256 t + p`. -/
theorem tile_at (c : Dev nD) (t : Fin cfg0.N) (p : Fin 256) (q : Fin 1024) :
    k0_pay1 (F := Ideal) (bX m c t) (bH m c t) (bW m c t) (bB m c t) (bU m c t) (bUb m c t) (ix2 p q)
      = gruAt (aX m c) (aH m c) (aW m c) (aB m c) (aUr m c) (aUz m c) (aUn m c) (aBn m c) (row t p) q := by
  refine (pay_at (bX m c t) (bH m c t) (bW m c t) (bB m c t) (bU m c t) (bUb m c t) p q).trans ?_
  unfold combine gruAt zGate nGate rGate
  rw [projX, projX, projX, projH_r, projH_z, projH_n, h_blk]

/-! ## From the tiles to the array -/

theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the specification's array. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  unfold cellOut
  rw [View.canon_unit_zero hz2]
  simp only [View.ld_unit_zero (S := S256x1024) hz2, View.ld_unit_zero (S := S1024x3072) hz2, View.ld_unit_zero (S := S3072) hz1]
  funext j
  obtain ⟨p, q, rfl⟩ : ∃ (p : Fin 256) (q : Fin 1024), j = ix2 p q := ⟨j 0, j 1, eq_ix2 j⟩
  show k0_pay1 (F := Ideal) (bX m c t) (bH m c t) (bW m c t) (bB m c t) (bU m c t) (bUb m c t) (ix2 p q)
      = G m c (((cfg0.win 6).blk t).view.emb (ix2 p q))
  rw [out_emb, tile_at]
  rfl

/-- An index of the result array is in point `t`'s block iff each coordinate is in the block's range on its axis. -/
theorem mem_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v9).slice (win0_6.rect t)).set ↔ _
  rw [View.set_slice_whole, Rect.mem_set_unit]
  exact Iff.rfl

/-- Every entry of the result array is in the block of the point its batch row's tile names. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have ht : (i 0).val / 256 < cfg0.N := by rw [show cfg0.N = 32 from N_0]; omega
  obtain ⟨-, -, -, -, -, -, -, -, -, -, e0, e1⟩ := idx_facts ⟨(i 0).val / 256, ht⟩
  refine ⟨⟨(i 0).val / 256, ht⟩, flush0_6 _, ?_⟩
  rw [mem_blk]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 1024 ≤ (i 1).val ∧ (i 1).val < win0_6.index ⟨(i 0).val / 256, ht⟩ (1 : Fin 2) * 1024 + 1024
    rw [e1]; omega

/-- The result array after the run. -/
theorem final (c : Dev nD) : (dats m 0 c).arrAt 6 cfg0.N = G m c :=
  (dats m 0 c).arrAt_eq_of_cover 6 (G m c) (fun t _ => flushed_eq m c t) cover

/-- The run, read: the result array ends at the GRU cell of the launch contents, the eight arguments as launched. -/
theorem run : θ_run defs (onTc (τ := τ) (main (F := Ideal))) ⟨m, fun _ => 0, ρ⟩ fun r => ∀ c : Dev nD,
      r.2.mem ((c.tc : Thread nD τ).loc main_v9) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 6).trans (final m c), kept_of_post m (dats m) (A_eq m) r h c⟩) (run_main m ρ)

end Cert.KernelIdeal.CellValue

end
-- ==== Proof.CellRef.lean ====
/-
  The reference's result array is the GRU cell of the specification, entry by entry.

  The reference computes the input projection x · Wᵀ + bias over all 3 * 1024 gate columns and slices it into three,
  computes the three hidden projections h · Uᵀ separately, and then the gates with the sigmoid spelt out as
  1 / (1 + exp (-a)). Read at batch row b and hidden unit q, each stage is the specification's term of the same name: a
  transposed weight read at (k, j) is the weight at (j, k), a bias broadcast along the batch reads the bias at the column,
  a slice at offset 0, 1024 or 2048 reads that gate's column.
-/
import proofs.«127611_j62027917689184_1_alg».proof.Proof.Gen.ReferenceIdeal.Read
import proofs.«127611_j62027917689184_1_alg».proof.Proof.CellSpec

noncomputable section

open scoped BigOperators

namespace Cert.ReferenceIdeal.Cell

open Cert.ReferenceIdeal Cert.ReferenceIdeal.Gen Cert.ReferenceIdeal.Read Idealize.ShloMosaic Idealize.ShloMosaic.ValueIdx Cert.Cell

variable (x0 x1 : (⟨S8192x1024, .f32⟩ : BufTy).Contents (Elt Ideal)) (x2 : (⟨S3072x1024, .f32⟩ : BufTy).Contents (Elt Ideal))
  (x3 : (⟨S3072, .f32⟩ : BufTy).Contents (Elt Ideal)) (x4 x5 x6 : (⟨S1024x1024, .f32⟩ : BufTy).Contents (Elt Ideal))
  (x7 : (⟨S1024, .f32⟩ : BufTy).Contents (Elt Ideal))

/-! ## The projections -/

/-- The input projection with its bias, at batch row `b` and gate column `j`. -/
theorem in_at (b : Fin 8192) (j : Fin 3072) : val_main_v4 (F := Ideal) x0 x2 x3 (ix2 b j) = inGate x0 x2 x3 b j := by
  have eb : idx_main_v2 (idx_main_v3 (ix2 b j)) = ix1 j := funext fun a => by match a with | ⟨0, _⟩ => rfl
  have el : ∀ k : Fin 1024, lidx_main_v1 (ix2 b j) k = ix2 b k := fun k => funext fun a => by
    match a with | ⟨0, _⟩ => rfl | ⟨1, _⟩ => rfl
  have er : ∀ k : Fin 1024, idx_main_v0 (ridx_main_v1 (ix2 b j) k) = ix2 j k := fun k => funext fun a => by
    match a with | ⟨0, _⟩ => rfl | ⟨1, _⟩ => rfl
  rw [val_main_v4_apply, val_main_v1_apply, val_main_v3_apply, val_main_v2_apply, eb]
  simp only [val_main_v0_apply, el, er]
  rfl

/-- The three slices of the input projection are its three gates' columns. -/
theorem in_r_at (b : Fin 8192) (q : Fin 1024) : val_main_v5 (F := Ideal) x0 x2 x3 (ix2 b q) = inGate x0 x2 x3 b (col 0 (by omega) q) := by
  have e : idx_main_v5 (ix2 b q) = ix2 b (col 0 (by omega) q) := funext fun a => by
    match a with
    | ⟨0, _⟩ => rfl
    | ⟨1, _⟩ => exact Fin.ext (by show q.val = 0 + q.val; omega)
  rw [val_main_v5_apply, e, in_at]
theorem in_z_at (b : Fin 8192) (q : Fin 1024) : val_main_v6 (F := Ideal) x0 x2 x3 (ix2 b q) = inGate x0 x2 x3 b (col 1024 (by omega) q) := by
  have e : idx_main_v6 (ix2 b q) = ix2 b (col 1024 (by omega) q) := funext fun a => by
    match a with
    | ⟨0, _⟩ => rfl
    | ⟨1, _⟩ => rfl
  rw [val_main_v6_apply, e, in_at]
theorem in_n_at (b : Fin 8192) (q : Fin 1024) : val_main_v7 (F := Ideal) x0 x2 x3 (ix2 b q) = inGate x0 x2 x3 b (col 2048 (by omega) q) := by
  have e : idx_main_v7 (ix2 b q) = ix2 b (col 2048 (by omega) q) := funext fun a => by
    match a with
    | ⟨0, _⟩ => rfl
    | ⟨1, _⟩ => rfl
  rw [val_main_v7_apply, e, in_at]

/-- The three hidden projections. -/
theorem hid_r_at (b : Fin 8192) (q : Fin 1024) : val_main_v9 (F := Ideal) x1 x4 (ix2 b q) = hidGate x1 x4 b q := by
  have el : ∀ k : Fin 1024, lidx_main_v9 (ix2 b q) k = ix2 b k := fun k => funext fun a => by
    match a with | ⟨0, _⟩ => rfl | ⟨1, _⟩ => rfl
  have er : ∀ k : Fin 1024, idx_main_v8 (ridx_main_v9 (ix2 b q) k) = ix2 q k := fun k => funext fun a => by
    match a with | ⟨0, _⟩ => rfl | ⟨1, _⟩ => rfl
  rw [val_main_v9_apply]
  simp only [val_main_v8_apply, el, er]
  rfl
theorem hid_z_at (b : Fin 8192) (q : Fin 1024) : val_main_v11 (F := Ideal) x1 x5 (ix2 b q) = hidGate x1 x5 b q := by
  have el : ∀ k : Fin 1024, lidx_main_v11 (ix2 b q) k = ix2 b k := fun k => funext fun a => by
    match a with | ⟨0, _⟩ => rfl | ⟨1, _⟩ => rfl
  have er : ∀ k : Fin 1024, idx_main_v10 (ridx_main_v11 (ix2 b q) k) = ix2 q k := fun k => funext fun a => by
    match a with | ⟨0, _⟩ => rfl | ⟨1, _⟩ => rfl
  rw [val_main_v11_apply]
  simp only [val_main_v10_apply, el, er]
  rfl
theorem hid_n_at (b : Fin 8192) (q : Fin 1024) : val_main_v13 (F := Ideal) x1 x6 (ix2 b q) = hidGate x1 x6 b q := by
  have el : ∀ k : Fin 1024, lidx_main_v13 (ix2 b q) k = ix2 b k := fun k => funext fun a => by
    match a with | ⟨0, _⟩ => rfl | ⟨1, _⟩ => rfl
  have er : ∀ k : Fin 1024, idx_main_v12 (ridx_main_v13 (ix2 b q) k) = ix2 q k := fun k => funext fun a => by
    match a with | ⟨0, _⟩ => rfl | ⟨1, _⟩ => rfl
  rw [val_main_v13_apply]
  simp only [val_main_v12_apply, el, er]
  rfl

/-- The candidate's hidden projection with its bias. -/
theorem hid_nb_at (b : Fin 8192) (q : Fin 1024) : val_main_v16 (F := Ideal) x1 x6 x7 (ix2 b q) = hidGate x1 x6 b q + x7 (ix1 q) := by
  have e : idx_main_v14 (idx_main_v15 (ix2 b q)) = ix1 q := funext fun a => by match a with | ⟨0, _⟩ => rfl
  rw [val_main_v16_apply, hid_n_at, val_main_v15_apply, val_main_v14_apply, e]
  rfl

/-! ## The gates -/

/-- The reset gate: the sigmoid, spelt out, of the first gate's two projections. -/
theorem r_at (b : Fin 8192) (q : Fin 1024) : val_main_v23 (F := Ideal) x0 x1 x2 x3 x4 (ix2 b q) = rGate x0 x1 x2 x3 x4 b q := by
  rw [val_main_v23_apply, val_main_v22_apply, val_main_cst_0_apply, val_main_v21_apply, val_main_v20_apply, val_main_cst_apply,
    val_main_v19_apply, val_main_v18_apply, val_main_v17_apply, in_r_at, hid_r_at]
  rfl

/-- The update gate. -/
theorem z_at (b : Fin 8192) (q : Fin 1024) : val_main_v30 (F := Ideal) x0 x1 x2 x3 x5 (ix2 b q) = zGate x0 x1 x2 x3 x5 b q := by
  rw [val_main_v30_apply, val_main_v29_apply, val_main_cst_2_apply, val_main_v28_apply, val_main_v27_apply, val_main_cst_1_apply,
    val_main_v26_apply, val_main_v25_apply, val_main_v24_apply, in_z_at, hid_z_at]
  rfl

/-- The candidate state. -/
theorem n_at (b : Fin 8192) (q : Fin 1024) : val_main_v33 (F := Ideal) x0 x1 x2 x3 x4 x6 x7 (ix2 b q) = nGate x0 x1 x2 x3 x4 x6 x7 b q := by
  rw [val_main_v33_apply, val_main_v32_apply, val_main_v31_apply, in_n_at, r_at, hid_nb_at]
  rfl

/-! ## The result -/

theorem out_at (b : Fin 8192) (q : Fin 1024) :
    val_main_v38 (F := Ideal) x0 x1 x2 x3 x4 x5 x6 x7 (ix2 b q) = gruAt x0 x1 x2 x3 x4 x5 x6 x7 b q := by
  rw [val_main_v38_apply, val_main_v36_apply, val_main_v35_apply, val_main_v34_apply, val_main_cst_3_apply, val_main_v37_apply,
    z_at, n_at]
  rfl

/-- The reference's result array is the specification's. -/
theorem ref_eq : val_main_v38 (F := Ideal) x0 x1 x2 x3 x4 x5 x6 x7 = gru x0 x1 x2 x3 x4 x5 x6 x7 := by
  funext i
  obtain ⟨b, q, rfl⟩ : ∃ (b : Fin 8192) (q : Fin 1024), i = ix2 b q := ⟨i 0, i 1, eq_ix2 i⟩
  exact out_at x0 x1 x2 x3 x4 x5 x6 x7 b q

end Cert.ReferenceIdeal.Cell

end
-- ==== Proof.lean ====
/-
  The certificate of the GRU cell: the word-level program, its idealization and the reference each run to the end without a
  fault and leave their eight arguments unchanged, and at the ideal instance the idealized program and the reference end
  with the same result array.

  The two programs with the kernel are ten host operations and one pipelined region; their frames are proved in the two frame
  modules (the same argument at the two instances). The reference is host operations only; its frame is its generated run with
  the result dropped. No operation was rewritten by the ideal pass, so there is nothing to preserve. For the value claim, both
  result arrays are the specification's GRU cell of the argument arrays: the kernel's by the tiles its 32 grid points write
  back, the reference's stage by stage; the runs start from memories that agree on the arguments.
-/
import proofs.«127611_j62027917689184_1_alg».proof.Defs
import proofs.«127611_j62027917689184_1_alg».proof.Proof.Gen.Kernel
import proofs.«127611_j62027917689184_1_alg».proof.Proof.Gen.KernelIdeal
import proofs.«127611_j62027917689184_1_alg».proof.Proof.Gen.ReferenceIdeal
import proofs.«127611_j62027917689184_1_alg».proof.Proof.Gen.Pre_finite_inputs
import proofs.«127611_j62027917689184_1_alg».proof.Proof.CellFrameBits
import proofs.«127611_j62027917689184_1_alg».proof.Proof.CellValue
import proofs.«127611_j62027917689184_1_alg».proof.Proof.CellRef

noncomputable section

namespace Cert.Proof

open Idealize.ShloMosaic Idealize.SL.Sem

theorem frame_kernel : Cert.frame_Kernel := fun m ρ _ => Cert.Kernel.Cell.frame m ρ

theorem frame_kernel_ideal : Cert.frame_KernelIdeal := fun m ρ _ => Cert.KernelIdeal.Cell.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the GRU cell of the (agreeing) argument arrays. -/
theorem algebraic : Cert.algebraic_KernelIdeal_ReferenceIdeal := by
  intro m ρ m' ρ' _ hagree
  refine ⟨fun c => Cert.KernelIdeal.CellValue.G m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact (Cert.ReferenceIdeal.Read.val_main_v38_eq (F := Ideal) _ _ _ _ _ _ _ _).trans
    (Cert.ReferenceIdeal.Cell.ref_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
